-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000x1024 : Shape := ⟨2, ![1000, 1024]⟩
abbrev S16384x1024 : Shape := ⟨2, ![16384, 1024]⟩
abbrev S16384 : Shape := ⟨1, ![16384]⟩
abbrev S_ : Shape := ⟨0, ![]⟩

class Facts : Prop where
  bcast_S_S1000x1024 : S_.BroadcastsInDim S1000x1024 (![] : Fin 0 → Fin S1000x1024.rank)
  reducesTo_S1000x1024_S_d0_1 : S1000x1024.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S1000x1024 .f32) (main_arg1 : FVec F S16384x1024 .f32) (main_arg2 : IVec S16384 32) : IVec S_ 1 :=
  let main_v0 : FVec F S1000x1024 .f32 := Host.absf main_arg0
  let main_cst : FVec F S_ .f32 := constant S_ .f32 0x7F800000#32
  let main_v1 : FVec F S1000x1024 .f32 := broadcastInDim S1000x1024 ![] bcast_S_S1000x1024 main_cst
  let main_v2 : IVec S1000x1024 1 := cmpf .olt main_v0 main_v1
  let main_c : IVec S_ 1 := constantI S_ 1 1#1
  let main_v3 : IVec S_ 1 := (fun x v => Host.reduce IntOp.andi x v reducesTo_S1000x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg2 main_v9
  let main_c_3 : IVec S_ 32 := constantI S_ 32 1000#32
  let main_v11 : IVec S16384 32 := broadcastInDim S16384 ![] bcast_S_S16384 main_c_3
  let main_v12 : IVec S16384 1 := cmpi .slt main_arg2 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  main_v15
-- ==== Kernel.lean ====
abbrev S1000x1024 : Shape := ⟨2, ![1000, 1024]⟩
abbrev S16384x1024 : Shape := ⟨2, ![16384, 1024]⟩
abbrev S16384 : Shape := ⟨1, ![16384]⟩
abbrev S_ : Shape := ⟨0, ![]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S16384x1 : Shape := ⟨2, ![16384, 1]⟩
abbrev S16x1x1024 : Shape := ⟨3, ![16, 1, 1024]⟩
abbrev S1x1x1024 : Shape := ⟨3, ![1, 1, 1024]⟩
abbrev S16x1024 : Shape := ⟨2, ![16, 1024]⟩

abbrev nBuf : Space → Nat
  | .hbm => 27
  | .vmem => 8
  | .smem => 0
  | _ => 0

abbrev bufTy : (tb : Table) → Fin (tcTables nBuf tb) → BufTy
  | .hbm, ⟨0, _⟩ => ⟨S1000x1024, .f32⟩
  | .hbm, ⟨1, _⟩ => ⟨S16384x1024, .f32⟩
  | .hbm, ⟨2, _⟩ => ⟨S16384, .i32⟩
  | .hbm, ⟨3, _⟩ => ⟨S_, .i32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1x1024, .f32⟩
  | .hbm, ⟨11, _⟩ => ⟨S1024x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S_, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S16x1x1024, .f32⟩
  | .hbm, ⟨22, _⟩ => ⟨S16x1024, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1, .i32⟩
  | .local _ .vmem, ⟨5, _⟩ => ⟨S1024x1, .i32⟩
  | .local _ .vmem, ⟨6, _⟩ => ⟨S1x1x1024, .f32⟩
  | .local _ .vmem, ⟨7, _⟩ => ⟨S1x1x1024, .f32⟩
  | _, _ => ⟨S1000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  pads_S1000x1024_S1024x1024_0240_000 : S1000x1024.Pads (![0, 0] : Fin 2 → Nat) ![24, 0] ![0, 0] S1024x1024
  h_S_ : 0 < S_.numel
  reducesTo_S1024x1024_S1024_d1 : S1024x1024.ReducesTo [1] S1024
  bcast_S1024_S1024x1_0 : S1024.BroadcastsInDim S1024x1 (![0] : Fin 1 → Fin S1024x1.rank)
  transposes_S1024x1_S1x1024_1_0 : S1024x1.Transposes [1, 0] S1x1024
  bitsLt_bf16_f32 : FTy.bits .bf16 < FTy.bits .f32
  bcast_S_S16384 : S_.BroadcastsInDim S16384 (![] : Fin 0 → Fin S16384.rank)
  shapeCasts_S16384_S16384x1 : S16384.ShapeCasts S16384x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d1_w32 : S1024x1024.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x1_p1_0_S1x1024 : S1024x1.Transposes [1, 0] S1x1024
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  shapeCasts_S16x1x1024_S16x1024 : S16x1x1024.ShapeCasts S16x1024
  reducesTo_S16x1024_S_d0_1 : S16x1024.ReducesTo [0, 1] S_
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S16384x1.size a
  hwx0_3 : ∀ i : grid0.Coords, EltTy.bits .i32 = 32 ∨ (Rect.block (s := S16384x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024.size a ≤ S16x1x1024.size a
  hwx0_4 : ∀ i : grid0.Coords, EltTy.bits .f32 = 32 ∨ (Rect.block (s := S16x1x1024) S1x1x1024.size (cc0_transform_4 i) (hinb0_4 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1000x1024 : Shape := ⟨2, ![1000, 1024]⟩
abbrev S16384x1024 : Shape := ⟨2, ![16384, 1024]⟩
abbrev S16384 : Shape := ⟨1, ![16384]⟩
abbrev S_ : Shape := ⟨0, ![]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S1024x1000 : Shape := ⟨2, ![1024, 1000]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S1000x1024, .f32⟩
  | .hbm, ⟨1, _⟩ => ⟨S16384x1024, .f32⟩
  | .hbm, ⟨2, _⟩ => ⟨S16384, .i32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1000x1024, .f32⟩
  | .hbm, ⟨8, _⟩ => ⟨S_, .f32⟩
  | .hbm, ⟨9, _⟩ => ⟨S1000, .f32⟩
  | .hbm, ⟨10, _⟩ => ⟨S1x1000, .f32⟩
  | .hbm, ⟨11, _⟩ => ⟨S16384x1000, .f32⟩
  | .hbm, ⟨12, _⟩ => ⟨S16384x1000, .f32⟩
  | .hbm, ⟨13, _⟩ => ⟨S16384x1000, .f32⟩
  | .hbm, ⟨14, _⟩ => ⟨S1024x1000, .f32⟩
  | .hbm, ⟨15, _⟩ => ⟨S16384x1000, .f32⟩
  | .hbm, ⟨16, _⟩ => ⟨S_, .f32⟩
  | .hbm, ⟨17, _⟩ => ⟨S16384x1000, .f32⟩
  | .hbm, ⟨18, _⟩ => ⟨S16384x1000, .f32⟩
  | .hbm, ⟨19, _⟩ => ⟨S16384x1000, .f32⟩
  | .hbm, ⟨20, _⟩ => ⟨S_, .f32⟩
  | .hbm, ⟨21, _⟩ => ⟨S16384x1000, .f32⟩
  | .hbm, ⟨22, _⟩ => ⟨S16384x1000, .f32⟩
  | .hbm, ⟨23, _⟩ => ⟨S16384x1000, .f32⟩
  | .hbm, ⟨24, _⟩ => ⟨S16384x1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S_, .i32⟩
  | .hbm, ⟨29, _⟩ => ⟨S16384x1, .i32⟩
  | .hbm, ⟨30, _⟩ => ⟨S16384x1, .i32⟩
  | .hbm, ⟨31, _⟩ => ⟨S16384x1, .i32⟩
  | .hbm, ⟨32, _⟩ => ⟨S16384x1x1, .i32⟩
  | .hbm, ⟨33, _⟩ => ⟨S1, .i32⟩
  | .hbm, ⟨34, _⟩ => ⟨S_, .i32⟩
  | .hbm, ⟨35, _⟩ => ⟨S16384x1x1, .i32⟩
  | .hbm, ⟨36, _⟩ => ⟨S16384x1x1, .i1⟩
  | .hbm, ⟨37, _⟩ => ⟨S1x1x1, .i32⟩
  | .hbm, ⟨38, _⟩ => ⟨S16384x1x1, .i32⟩
  | .hbm, ⟨39, _⟩ => ⟨S16384x1x1, .i1⟩
  | .hbm, ⟨40, _⟩ => ⟨S16384x1x1, .i1⟩
  | .hbm, ⟨41, _⟩ => ⟨S_, .i1⟩
  | .hbm, ⟨42, _⟩ => ⟨S16384x1, .i1⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16384, .f32⟩
  | .hbm, ⟨52, _⟩ => ⟨S16384, .f32⟩
  | .hbm, ⟨53, _⟩ => ⟨S_, .f32⟩
  | .hbm, ⟨54, _⟩ => ⟨S16384, .f32⟩
  | .hbm, ⟨55, _⟩ => ⟨S16384, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S1000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_cst : Ref sig .tc := ⟨.hbm, 44, rfl⟩
abbrev main_call0_v14 : Ref sig .tc := ⟨.hbm, 45, rfl⟩
abbrev main_v18 : Ref sig .tc := ⟨.hbm, 46, rfl⟩
abbrev main_v19 : Ref sig .tc := ⟨.hbm, 47, rfl⟩
abbrev main_cst_3 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_v20 : Ref sig .tc := ⟨.hbm, 55, rfl⟩
abbrev main_cst_5 : Ref sig .tc := ⟨.hbm, 56, rfl⟩
abbrev main_v21 : Ref sig .tc := ⟨.hbm, 57, rfl⟩
abbrev main_cst_6 : Ref sig .tc := ⟨.hbm, 58, rfl⟩
abbrev main_v22 : Ref sig .tc := ⟨.hbm, 59, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x1024_S1024x1000_1_0 : S1000x1024.Transposes [1, 0] S1024x1000
  bcast_S_S16384x1000 : S_.BroadcastsInDim S16384x1000 (![] : Fin 0 → Fin S16384x1000.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  shapeCasts_S16384x1_S16384 : S16384x1.ShapeCasts S16384
  bcast_S_S16384 : S_.BroadcastsInDim S16384 (![] : Fin 0 → Fin S16384.rank)
  reducesTo_S16384_S_d0 : S16384.ReducesTo [0] S_
  dot_S16384x1024_S1024x1000_S16384x1000_1_0_0_1_n_n_wf : DotDims.WF S16384x1024 S1024x1000 S16384x1000 [1] [0] [0] [1] [] []
  gather_S16384x1000_S16384x1x1_S16384x1_n_1_0_0_1_2_11_wf : GatherDims.WF S16384x1000 S16384x1x1 S16384x1 [] [1] [0] [1] [0] 2 ![1, 1]

variable [Facts₀]

def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf
def gather_S16384x1000_S16384x1x1_S16384x1_n_1_0_0_1_2_11 : GatherDims S16384x1000 S16384x1x1 S16384x1 where
  offsetDims := []
  collapsedSliceDims := [1]
  operandBatchingDims := [0]
  startIndicesBatchingDims := [0]
  startIndexMap := [1]
  indexVectorDim := 2
  sliceSizes := ![1, 1]
  wf := gather_S16384x1000_S16384x1x1_S16384x1_n_1_0_0_1_2_11_wf

class Facts : Prop extends Facts₀ where

variable [Facts]
-- ==== Proof.LabelRange.lean ====
/-
  The label range, read out of the precondition: where the printed predicate is all ones, every label word, read
  signed, is at least 0 and below 1000, so its value as a natural number is below 1000.

  The predicate is a conjunction whose last conjunct is `jnp.all` of `(labels ≥ 0) ∧ (labels < 1000)`: a reduction by
  `and` into one element, which is one only if every entry is; the entry is the `and` of two signed comparisons of the
  label with a broadcast scalar.
-/
import proofs.«412185_j48739288875316_2_alg».proof.Pre_finite_inputs
import Idealize.ShloMosaic.Lib.ReduceAll
import Idealize.ShloMosaic.Lib.Affine
import Idealize.ShloMosaic.Lib.IdealHost
import Idealize.ShloMosaic.Lib.ValueIdx

noncomputable section

namespace Cert.LabelRange

open Idealize.ShloMosaic Idealize.ShloMosaic.ValueIdx Cert.Pre_finite_inputs

/-- The rank-0 shape has one index. -/
instance : Subsingleton S_.Idx := ⟨fun _ _ => funext fun d => d.elim0⟩

/-- A 32-bit word that, read signed, is at least the word 0 and below the word 1000 has a value below 1000. -/
theorem toNat_lt_of_signed (w : BitVec 32) (h0 : (0#32 : BitVec 32).toInt ≤ w.toInt)
    (h1 : w.toInt < (1000#32 : BitVec 32).toInt) : w.toNat < 1000 := by
  have e0 : (0#32 : BitVec 32).toInt = 0 := by decide
  have e1 : (1000#32 : BitVec 32).toInt = 1000 := by decide
  rw [e0] at h0
  rw [e1] at h1
  have hw := w.isLt
  rw [BitVec.toInt_eq_toNat_cond] at h0 h1
  split_ifs at h0 h1 <;> omega

variable {F : FTy → Type} [FloatOps F] [Facts]

/-- On the precondition every label is a class number. -/
theorem label_lt (cen : FVec F S1000x1024 .f32) (feat : FVec F S16384x1024 .f32) (lab : IVec S16384 32)
    (h : fn (F := F) cen feat lab = fun _ => 1#1) (i : S16384.Idx) : (lab i).toNat < 1000 := by
  have h0 := congrFun h ix0
  dsimp only [fn] at h0
  have h0' : IntOp.andi _ _ = 1#1 := h0
  obtain ⟨-, hall⟩ := IntOp.andi_eq_one.1 h0'
  have e := Host.reduce_andi_all _ _ _ _ _ hall i
  have e' : IntOp.andi _ _ = 1#1 := e
  obtain ⟨hge, hlt⟩ := IntOp.andi_eq_one.1 e'
  have hge' : IntOp.cmpi .sge (lab i) (0#32) = 1#1 := hge
  have hlt' : IntOp.cmpi .slt (lab i) (1000#32) = 1#1 := hlt
  exact toNat_lt_of_signed _ (IntOp.cmpi_sge.1 hge') (IntOp.cmpi_slt.1 hlt')

end Cert.LabelRange

end
-- ==== Proof.Distance.lean ====
/-
  The value both programs compute, as one function of the three argument arrays, and the pure facts the two
  readings of it rest on.

  For a feature row `i` and a class `c` the squared distance is `‖f_i‖² + ‖c_c‖² − 2 ⟨f_i, c_c⟩`, the three terms
  sums over the 1024 coordinates; its root is taken after a clamp below at zero and is then clamped into
  `[1e-12, 1e12]` (the two bounds are the same two words in both programs, so they stay words). The result is the mean,
  over the 16384 rows, of that clamped root at the class the row's label names.

  Three facts: a sum over the 1024 lanes of terms masked by "the lane's number is this word" is the term at the
  word's lane; a sum over a [16, 1024] rectangle is the sum over its 16384 row-major positions; a conjunction folded
  over ones from one is one.
-/
import Idealize.ShloMosaic.PureOps.Ideal
import Idealize.ShloMosaic.PureOps.Ideal.Laws
import Idealize.ShloMosaic.Lib.ValueIdx
import Idealize.ShloMosaic.Lib.ValueIdxRank1
import Mathlib.Algebra.BigOperators.Fin
import Mathlib.Logic.Equiv.Fin.Basic

noncomputable section

namespace Cert.Distance

open Idealize.ShloMosaic Idealize.ShloMosaic.ValueIdx

/-- The class centres, the feature rows and the labels, as the programs' arguments hold them at the ideal values. -/
abbrev Centres := (⟨2, ![1000, 1024]⟩ : Shape).Idx → EReal
abbrev Features := (⟨2, ![16384, 1024]⟩ : Shape).Idx → EReal
abbrev Labels := (⟨1, ![16384]⟩ : Shape).Idx → BitVec 32

/-- `‖f_i‖²`: the sum of the squares of feature row `i`. -/
def featSq (feat : Features) (i : Fin 16384) : EReal := ∑ d : Fin 1024, feat (ix2 i d) * feat (ix2 i d)

/-- `‖c_c‖²`: the sum of the squares of centre `c`. -/
def cenSq (cen : Centres) (c : Fin 1000) : EReal := ∑ d : Fin 1024, cen (ix2 c d) * cen (ix2 c d)

/-- `⟨f_i, c_c⟩`. -/
def inner (cen : Centres) (feat : Features) (i : Fin 16384) (c : Fin 1000) : EReal :=
  ∑ d : Fin 1024, feat (ix2 i d) * cen (ix2 c d)

/-- The squared distance of row `i` to centre `c`, in the association both programs compute it in:
    `(‖f‖² + ‖c‖²) − 2 · ⟨f, c⟩`, the factor two the word of `2.0`. -/
def sqDist (cen : Centres) (feat : Features) (i : Fin 16384) (c : Fin 1000) : EReal :=
  (featSq feat i + cenSq cen c) - Ideal.ofBits .f32 0x40000000#32 * inner cen feat i c

/-- Clamp below at zero, take the root, clamp into the two bounds. -/
def clipRoot (x : EReal) : EReal :=
  min (Ideal.ofBits .f32 0x5368D4A5#32) (max (Ideal.ofBits .f32 0x2B8CBCCC#32) (Ideal.sqrt (max x 0)))

/-- The class a label word names: the word's value (reduced below 1000, which it already is on the claim's domain). -/
def cls (w : BitVec 32) : Fin 1000 := ⟨w.toNat % 1000, Nat.mod_lt _ (by decide)⟩

theorem cls_val {w : BitVec 32} (h : w.toNat < 1000) : (cls w).val = w.toNat := Nat.mod_eq_of_lt h

/-- Row `i`'s contribution: the clamped distance to the centre of the class its label names. -/
def rowDist (cen : Centres) (feat : Features) (lab : Labels) (i : Fin 16384) : EReal :=
  clipRoot (sqDist cen feat i (cls (lab (ix1 i))))

/-- The mean over the rows: their sum divided by the word of `16384.0`. -/
def meanDist (cen : Centres) (feat : Features) (lab : Labels) : EReal :=
  Ideal.div (∑ i : Fin 16384, rowDist cen feat lab i) (Ideal.ofBits .f32 0x46800000#32)

/-! ## A sum against a one-hot mask -/

/-- Of the 1024 lane numbers, as 32-bit words, exactly the lane `w.toNat` is the word `w` when `w` is below 1024; so a
    sum of terms kept where the lane's number is `w` and zero elsewhere is the term at that lane. -/
theorem sum_lane_eq (w : BitVec 32) (h : w.toNat < 1024) (f : Fin 1024 → EReal) :
    (∑ c : Fin 1024, if BitVec.ofNat 32 c.val = w then f c else 0) = f ⟨w.toNat, h⟩ := by
  rw [Finset.sum_eq_single (⟨w.toNat, h⟩ : Fin 1024)]
  · rw [if_pos]
    exact BitVec.eq_of_toNat_eq (by rw [BitVec.toNat_ofNat]; exact Nat.mod_eq_of_lt w.isLt)
  · intro c _ hc
    rw [if_neg]
    intro e
    apply hc
    apply Fin.ext
    have := congrArg BitVec.toNat e
    simp only [BitVec.toNat_ofNat] at this
    have hc' := c.isLt
    show c.val = w.toNat
    omega
  · intro hn; exact absurd (Finset.mem_univ _) hn

/-! ## A rectangle's sum by rows -/

/-- The sum over a [16, 1024] rectangle of a function that at (t, r) is `g` at position `1024 t + r` is the sum of
    `g` over the 16384 positions. -/
theorem sum_rect (F : (⟨2, ![16, 1024]⟩ : Shape).Idx → EReal) (g : Fin 16384 → EReal)
    (h : ∀ (t : Fin 16) (r : Fin 1024), F (ix2 t r) = g ⟨t.val * 1024 + r.val, by have := t.isLt; have := r.isLt; omega⟩) :
    ∑ j, F j = ∑ i : Fin 16384, g i := by
  rw [sum_idx2]
  rw [← Equiv.sum_comp (finProdFinEquiv (m := 16) (n := 1024)) g, Fintype.sum_prod_type]
  refine Finset.sum_congr rfl fun t _ => Finset.sum_congr rfl fun r _ => ?_
  rw [h t r]
  refine congrArg g (Fin.ext ?_)
  show t.val * 1024 + r.val = r.val + 1024 * t.val
  omega

/-- The sum over the one axis of a vector of 16384 entries is the sum over its positions. -/
theorem sum_vec (F : (⟨1, ![16384]⟩ : Shape).Idx → EReal) : ∑ j, F j = ∑ i : Fin 16384, F (ix1 i) := by
  rw [← Equiv.sum_comp (idxEquiv1 (n := 16384)).symm]
  exact Finset.sum_congr rfl fun i _ => rfl

/-! ## A conjunction of ones -/

/-- Folding `and` from one over words that are all one leaves one. -/
theorem foldl_andi_of_all {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_of_all f l fun n hn => h n (List.mem_cons_of_mem _ hn)

end Cert.Distance

end
-- ==== Proof.ReferenceMean.lean ====
/-
  The reference's result is the mean clamped distance: its last stage, read back one operation at a time, is
  `Cert.Distance.meanDist` of the three arguments wherever every label is a class number.

  Row sums of squares and the matrix product are sums over the 1024 coordinates; the per-sample take reads, in row
  `i`, the column the label names: on the claim's domain the label is not negative (so it is not wrapped), it passes
  the range test (so the fill value is not selected), and the clamp of the start index leaves it as it is.
-/
import proofs.«412185_j48739288875316_2_alg».proof.Proof.ReferenceRead
import proofs.«412185_j48739288875316_2_alg».proof.Proof.Distance
import Idealize.ShloMosaic.Lib.StableHlo.Predicate
import Idealize.ShloMosaic.Lib.Affine

noncomputable section

namespace Cert.ReferenceIdeal.RefValue

open Cert.ReferenceIdeal Cert.ReferenceIdeal.Gen Cert.ReferenceIdeal.ReadP Cert.Distance
open Idealize.ShloMosaic Idealize.ShloMosaic.ValueIdx Idealize.ShloMosaic.StableHlo

variable (cen : FVec Ideal S1000x1024 .f32) (feat : FVec Ideal S16384x1024 .f32) (lab : IVec S16384 32)

/-! ## The squared distance -/

theorem featSq_at (i : Fin 16384) : val_main_v1 (F := Ideal) feat (ix1 i) = featSq feat i := by
  rw [val_main_v1_apply]
  show Ideal.ofBits .f32 0x00000000#32 + _ = _
  rw [Ideal.ofBits_zero_f32, zero_add]
  refine Finset.sum_congr rfl fun k _ => ?_
  have e : idx_main_v1 (ix1 i) k = ix2 i k :=
    funext fun a => Fin.ext (by match a with | ⟨0, _⟩ => rfl | ⟨1, _⟩ => rfl)
  rw [val_main_v0_apply, e]
  rfl

theorem cenSq_at (c : Fin 1000) : val_main_v4 (F := Ideal) cen (ix1 c) = cenSq cen c := by
  rw [val_main_v4_apply]
  show Ideal.ofBits .f32 0x00000000#32 + _ = _
  rw [Ideal.ofBits_zero_f32, zero_add]
  refine Finset.sum_congr rfl fun k _ => ?_
  have e : idx_main_v4 (ix1 c) k = ix2 c k :=
    funext fun a => Fin.ext (by match a with | ⟨0, _⟩ => rfl | ⟨1, _⟩ => rfl)
  rw [val_main_v3_apply, e]
  rfl

theorem inner_at (i : Fin 16384) (c : Fin 1000) :
    val_main_v10 (F := Ideal) cen feat (ix2 i c) = inner cen feat i c := by
  rw [val_main_v10_apply]
  refine Finset.sum_congr rfl fun k _ => ?_
  have el : lidx_main_v10 (ix2 i c) k = ix2 i k :=
    funext fun a => Fin.ext (by match a with | ⟨0, _⟩ => rfl | ⟨1, _⟩ => rfl)
  have er : idx_main_v9 (ridx_main_v10 (ix2 i c) k) = ix2 c k :=
    funext fun a => Fin.ext (by match a with | ⟨0, _⟩ => rfl | ⟨1, _⟩ => rfl)
  rw [val_main_v9_apply, el, er]

theorem sqDist_at (i : Fin 16384) (c : Fin 1000) :
    val_main_v13 (F := Ideal) cen feat (ix2 i c) = sqDist cen feat i c := by
  have e1 : idx_main_v2 (idx_main_v6 (ix2 i c)) = ix1 i :=
    funext fun a => Fin.ext (by match a with | ⟨0, _⟩ => rfl)
  have e2 : idx_main_v5 (idx_main_v7 (ix2 i c)) = ix1 c :=
    funext fun a => Fin.ext (by match a with | ⟨0, _⟩ => rfl)
  rw [val_main_v13_apply, val_main_v8_apply, val_main_v12_apply, val_main_v6_apply, val_main_v7_apply,
    val_main_v2_apply, val_main_v5_apply, val_main_v11_apply, val_main_cst_1_apply, e1, e2,
    featSq_at, cenSq_at, inner_at]
  rfl

/-- The root of the squared distance clamped below at zero: the entry of the distance matrix. -/
theorem root_at (i : Fin 16384) (c : Fin 1000) :
    val_main_v16 (F := Ideal) cen feat (ix2 i c) = Ideal.sqrt (max (sqDist cen feat i c) 0) := by
  rw [val_main_v16_apply, val_main_v15_apply, val_main_v14_apply, val_main_cst_2_apply, sqDist_at]
  show Ideal.sqrt (max _ (Ideal.ofBits .f32 0x00000000#32)) = _
  rw [Ideal.ofBits_zero_f32]

/-! ## A class number as a signed word -/

theorem toInt_of_class {w : BitVec 32} (h : w.toNat < 1000) : w.toInt = w.toNat :=
  Predicate.toInt_eq_toNat_of_lt (by omega)

/-- A class number is not negative, -/
theorem not_slt_zero {w : BitVec 32} (h : w.toNat < 1000) : IntOp.cmpi .slt w 0#32 = 0#1 :=
  eq_zero_of_ne_one fun e => by
    have := IntOp.cmpi_slt.1 e
    rw [toInt_of_class h] at this
    have e0 : (0#32 : BitVec 32).toInt = 0 := by decide
    omega

theorem sge_zero {w : BitVec 32} (h : w.toNat < 1000) : IntOp.cmpi .sge w 0#32 = 1#1 :=
  IntOp.cmpi_sge.2 (by
    rw [toInt_of_class h]
    have e0 : (0#32 : BitVec 32).toInt = 0 := by decide
    omega)

/-- and is at most 999. -/
theorem sle_last {w : BitVec 32} (h : w.toNat < 1000) : IntOp.cmpi .sle w 999#32 = 1#1 :=
  IntOp.cmpi_sle.2 (by
    rw [toInt_of_class h]
    have e1 : (999#32 : BitVec 32).toInt = 999 := by decide
    omega)

/-! ## The take -/

variable (hlab : ∀ j, (lab j).toNat < 1000)
include hlab

/-- The start index of row `j` is the row's label itself: a class number is not wrapped. -/
theorem start_at (j : S16384x1.Idx) : val_main_call0_v4 (F := Ideal) lab j = lab (idx_main_v17 j) := by
  rw [val_main_call0_v4_apply, val_main_call0_v1_apply, val_main_v17_apply, val_main_call0_v0_apply,
    val_main_call0_c_apply, not_slt_zero (hlab _), select_zero]

/-- Every start index passes the range test, -/
theorem inrange_entry (k : S16384x1x1.Idx) : val_main_call0_v11 (F := Ideal) lab k = 1#1 := by
  rw [val_main_call0_v11_apply, val_main_call0_v7_apply, val_main_call0_v10_apply, val_main_call0_v5_apply,
    start_at lab hlab, val_main_call0_v6_apply, val_main_call0_c_2_apply, val_main_call0_v9_apply,
    val_main_call0_v8_apply, val_main_call0_c_1_apply, sge_zero (hlab _), sle_last (hlab _)]
  rfl

/-- so the test's conjunction over the (one-element) index vector is one at every row. -/
theorem inrange_at (j : S16384x1.Idx) : val_main_call0_v12 (F := Ideal) lab j = 1#1 := by
  unfold val_main_call0_v12
  rw [Host.reduce_eq_foldl]
  exact foldl_andi_of_all (val_main_call0_v11 (F := Ideal) lab) _ fun n _ => inrange_entry lab hlab n

/-! ## The take reads the labelled column -/

/-- The start-indices position row `i` reads its one index component at. -/
theorem siIdx_at (i : Fin 16384) (q : Fin gather_S16384x1000_S16384x1x1_S16384x1_n_1_0_0_1_2_11.startIndexMap.length) :
    gather_S16384x1000_S16384x1x1_S16384x1_n_1_0_0_1_2_11.siIdx (ix2 i (0 : Fin 1)) q = ix3 i (0 : Fin 1) (0 : Fin 1) := by
  funext b
  apply Fin.ext
  match b with
  | ⟨0, _⟩ => rfl
  | ⟨1, _⟩ => rfl
  | ⟨2, _⟩ =>
    have hq : q.val < 1 := q.isLt
    show q.val = 0
    omega

/-- Row `i`'s start index is its label. -/
theorem startWord_at (i : Fin 16384) :
    val_main_call0_v5 (F := Ideal) lab (ix3 i (0 : Fin 1) (0 : Fin 1)) = lab (ix1 i) := by
  have e : idx_main_v17 (idx_main_call0_v5 (ix3 i (0 : Fin 1) (0 : Fin 1))) = ix1 i :=
    funext fun a => Fin.ext (by
      match a with
      | ⟨0, _⟩ =>
        show ((i.val * 1 + 0) * 1 + 0) / 1 = i.val
        omega)
  rw [val_main_call0_v5_apply, start_at lab hlab, e]

/-- The take, at row `i`, reads the distance matrix at the column the row's label names: the row is the batching
    coordinate, the column the start index clamped into `[0, 999]`, which a class number already is. -/
theorem take_at (i : Fin 16384) :
    val_main_call0_v13 (F := Ideal) cen feat lab (ix2 i (0 : Fin 1))
      = val_main_v16 (F := Ideal) cen feat (ix2 i (cls (lab (ix1 i)))) := by
  unfold val_main_call0_v13 Host.gather
  refine congrArg (val_main_v16 (F := Ideal) cen feat) (funext fun a => Fin.ext ?_)
  have hw := hlab (ix1 i)
  match a with
  | ⟨0, _⟩ =>
    have hb : (0 : Fin 2) ∈ gather_S16384x1000_S16384x1x1_S16384x1_n_1_0_0_1_2_11.operandBatchingDims := by decide
    have hk : (0 : Fin 2) ∉ gather_S16384x1000_S16384x1x1_S16384x1_n_1_0_0_1_2_11.sKept := fun h => ((gather_S16384x1000_S16384x1x1_S16384x1_n_1_0_0_1_2_11.mem_sKept 0).1 h).2 hb
    show gather_S16384x1000_S16384x1x1_S16384x1_n_1_0_0_1_2_11.start _ _ 0 + gather_S16384x1000_S16384x1x1_S16384x1_n_1_0_0_1_2_11.batchCoord _ 0 + gather_S16384x1000_S16384x1x1_S16384x1_n_1_0_0_1_2_11.offCoord _ 0 = i.val
    rw [gather_S16384x1000_S16384x1x1_S16384x1_n_1_0_0_1_2_11.start_batching _ _ 0 hb, gather_S16384x1000_S16384x1x1_S16384x1_n_1_0_0_1_2_11.offCoord_eq_zero _ 0 hk, Nat.zero_add, Nat.add_zero]
    unfold GatherDims.batchCoord
    rw [dif_pos hb]
    rfl
  | ⟨1, _⟩ =>
    have hb : (1 : Fin 2) ∉ gather_S16384x1000_S16384x1x1_S16384x1_n_1_0_0_1_2_11.operandBatchingDims := by decide
    have hc : (1 : Fin 2) ∈ gather_S16384x1000_S16384x1x1_S16384x1_n_1_0_0_1_2_11.collapsedSliceDims := by decide
    have hk : (1 : Fin 2) ∉ gather_S16384x1000_S16384x1x1_S16384x1_n_1_0_0_1_2_11.sKept := fun h => ((gather_S16384x1000_S16384x1x1_S16384x1_n_1_0_0_1_2_11.mem_sKept 1).1 h).1 hc
    have hm : (1 : Fin 2) ∈ gather_S16384x1000_S16384x1x1_S16384x1_n_1_0_0_1_2_11.startIndexMap := by decide
    show gather_S16384x1000_S16384x1x1_S16384x1_n_1_0_0_1_2_11.start _ _ 1 + gather_S16384x1000_S16384x1x1_S16384x1_n_1_0_0_1_2_11.batchCoord _ 1 + gather_S16384x1000_S16384x1x1_S16384x1_n_1_0_0_1_2_11.offCoord _ 1 = (cls (lab (ix1 i))).val
    rw [gather_S16384x1000_S16384x1x1_S16384x1_n_1_0_0_1_2_11.batchCoord_eq_zero _ 1 hb, gather_S16384x1000_S16384x1x1_S16384x1_n_1_0_0_1_2_11.offCoord_eq_zero _ 1 hk, Nat.add_zero]
    unfold GatherDims.start
    rw [dif_pos hm]
    refine (congrArg (fun z : BitVec 32 => min z.toInt.toNat (1000 - 1))
      ((congrArg (val_main_call0_v5 (F := Ideal) lab) (siIdx_at lab hlab i _)).trans (startWord_at lab hlab i))).trans ?_
    show min (lab (ix1 i)).toInt.toNat (1000 - 1) = _
    rw [toInt_of_class hw, Int.toNat_natCast, cls_val hw]
    omega

/-! ## The row and the mean -/

/-- Row `i` of the clamped selection is the clamped distance to the labelled centre. -/
theorem row_at (i : Fin 16384) : val_main_v20 (F := Ideal) cen feat lab (ix1 i) = rowDist cen feat lab i := by
  have e19 : idx_main_v19 (ix1 i) = ix2 i (0 : Fin 1) :=
    funext fun a => Fin.ext (by
      match a with
      | ⟨0, _⟩ => exact Nat.div_one _
      | ⟨1, _⟩ => rfl)
  rw [val_main_v20_apply, val_main_call1_v4_apply, val_main_call1_v3_apply, val_main_cst_4_apply,
    val_main_call1_v2_apply, val_main_call1_v1_apply, val_main_call1_v0_apply, val_main_cst_3_apply,
    val_main_v19_apply, e19, val_main_v18_apply, inrange_at lab hlab, select_one, take_at cen feat lab hlab, root_at]
  rfl

/-- THE REFERENCE'S RESULT: the mean clamped distance. -/
theorem mean_eq : val_main_v22 (F := Ideal) cen feat lab = fun _ => meanDist cen feat lab := by
  funext j
  rw [val_main_v22_apply, val_main_v21_apply, val_main_cst_6_apply]
  show Ideal.div (Ideal.ofBits .f32 0x00000000#32 + ∑ j, val_main_v20 (F := Ideal) cen feat lab j)
    (Ideal.ofBits .f32 0x46800000#32) = _
  rw [Ideal.ofBits_zero_f32, zero_add, sum_vec]
  have hs : (∑ i : Fin 16384, val_main_v20 (F := Ideal) cen feat lab (ix1 i)) = ∑ i : Fin 16384, rowDist cen feat lab i :=
    Finset.sum_congr rfl fun i _ => row_at cen feat lab hlab i
  rw [hs]
  rfl

end Cert.ReferenceIdeal.RefValue

end
-- ==== Proof.LibColumn.lean ====
/-
  Layout operations around a column: the shape casts and the broadcast that a sum taken with its axis kept
  (`keepdims`) puts around a vector, read at an index written by its coordinates.

  A vector `[a]` recast as the column `[a, 1]` reads, at `(i, u)`, the vector at `i`; a column `[a, 1]` broadcast over
  `b` columns reads, at `(p, c)`, the column at `(p, 0)`. Both are the row-major positions of the two indices agreeing,
  respectively the broadcast's rule "an axis of extent one reads coordinate 0". Stated at any extents.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast back to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Idealize.ShloMosaic.ValueIdx
-- ==== Proof.KernelRow.lean ====
/-
  One lane of the kernel body's stored row: for a feature block `x0` (1024 rows), the whole padded centre table
  `x1`, the row `x2` of the centres' squared norms and the column `x3` of the block's labels, lane `r` of the stored
  [1, 1, 1024] row is the clamp into the two bounds of the root of

      ∑ over the 1024 columns c of ( max ((‖x0_r‖² + x2_c) − 2 ⟨x0_r, x1_c⟩) 0  where c's number is the label, else 0 ).

  The body's layout operations only move values between a vector, a column and a row; the sum of squares and the
  masked sum are lane sums over the second axis; the matrix product contracts the second axis of both operands.
-/
import proofs.«412185_j48739288875316_2_alg».proof.Proof.Gen.KernelIdeal.Skeleton
import proofs.«412185_j48739288875316_2_alg».proof.Proof.LibColumn
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.KernelIdeal.Row

open Cert.KernelIdeal Cert.KernelIdeal.Gen
open Idealize.ShloMosaic Idealize.ShloMosaic.ValueIdx Idealize.ShloMosaic.StableHlo

/-! ## Three readings -/

/-- The index a lane sum over the second axis reads at row `r`, coordinate `d`. -/
theorem lift_eq (r d : Fin 1024) : reduces_S1024x1024_S1024.lift (ix1 r) d = ix2 r d :=
  funext fun a => Fin.ext (by match a with | ⟨0, _⟩ => rfl | ⟨1, _⟩ => rfl)

/-- A lane sum over the second axis of a [1024, 1024] block, at row `r`. -/
theorem laneSum_at (y : FVec Ideal S1024x1024 .f32) (r : Fin 1024) :
    multiReduction (F := Ideal) .add [1] S1024 y 0x00000000#32 reduces_S1024x1024_S1024 (.inl rfl) rfl (ix1 r)
      = ∑ d : Fin 1024, y (ix2 r d) :=
  (Ideal.multiReduction_add_single y 0x00000000#32 reduces_S1024x1024_S1024 (.inl rfl) rfl (ix1 r)).trans
    (Finset.sum_congr rfl fun d _ => congrArg y (lift_eq r d))

theorem lhs_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at (r, c): the inner product of row `r` of the left operand with row
    `c` of the right one (both operands are contracted along their second axis). -/
theorem product_at (l rr : FVec Ideal S1024x1024 .bf16) (r c : Fin 1024) :
    matmul (F := Ideal) dot_S1024x1024_S1024x1024_S1024x1024_1_1_0_0_n_n none l rr (constant S1024x1024 .f32 0x00000000#32) (ix2 r c)
      = ∑ d : Fin 1024, l (ix2 r d) * rr (ix2 c d) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 r c) ((ValueIdx.contrEquiv1 dot_S1024x1024_S1024x1024_S1024x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 r c) ((ValueIdx.contrEquiv1 dot_S1024x1024_S1024x1024_S1024x1024_1_1_0_0_n_n 1024 rfl rfl).symm k) = ix2 c k := funext fun a => Fin.ext (by
    match a with
    | ⟨0, _⟩ => exact rhs_0 _ _
    | ⟨1, _⟩ => exact (rhs_1 _ _).trans hk)
  rw [el, er]

/-- A select on "the two words are equal" is the `if` on their equality. -/
theorem select_eq_word {a b a' b' : BitVec 32} {x y x' y' : EReal} (ha : a = a') (hb : b = b') (hx : x = x') (hy : y = y') :
    Scalar.select (IntOp.cmpi .eq a b) x y = if a' = b' then x' else y' := by
  subst ha hb hx hy
  by_cases h : a = b
  · rw [if_pos h, Predicate.cmpi_eq_iff.2 h, select_one]
  · rw [if_neg h, eq_zero_of_ne_one (fun e => h (Predicate.cmpi_eq_iff.1 e)), select_zero]

theorem max_of_eq {a a' b b' : EReal} (ha : a = a') (hb : b = b') : max a b = max a' b' := by rw [ha, hb]
theorem min_of_eq {a a' b b' : EReal} (ha : a = a') (hb : b = b') : min a b = min a' b' := by rw [ha, hb]
theorem sub_of_eq {a a' b b' : EReal} (ha : a = a') (hb : b = b') : a - b = a' - b' := by rw [ha, hb]
theorem add_of_eq {a a' b b' : EReal} (ha : a = a') (hb : b = b') : a + b = a' + b' := by rw [ha, hb]
theorem mul_of_eq {a a' b b' : EReal} (ha : a = a') (hb : b = b') : a * b = a' * b' := by rw [ha, hb]

/-! ## The stored row -/

variable (x0 : FVec Ideal S1024x1024 .f32) (x1 : FVec Ideal S1024x1024 .bf16) (x2 : FVec Ideal S1x1024 .f32)
  (x3 : IVec S1024x1 32)

/-- The squared distance of the block's row `r` to column `c`'s centre, as the body computes it. -/
def blockSq (r c : Fin 1024) : EReal :=
  ((∑ d : Fin 1024, x0 (ix2 r d) * x0 (ix2 r d)) + x2 (ix2 (0 : Fin 1) c))
    - Ideal.ofBits .f32 0x40000000#32 * ∑ d : Fin 1024, x0 (ix2 r d) * x1 (ix2 c d)

/-- Lane `r` of the stored row. -/
theorem stored_at (r : Fin 1024) :
    k0_pay1 (F := Ideal) x0 x1 x2 x3 (ix3 (0 : Fin 1) (0 : Fin 1) r)
      = min (Ideal.ofBits .f32 0x5368D4A5#32) (max (Ideal.ofBits .f32 0x2B8CBCCC#32) (Ideal.sqrt
          (∑ c : Fin 1024, if BitVec.ofNat 32 c.val = x3 (ix2 r (0 : Fin 1)) then max (blockSq x0 x1 x2 r c) 0 else 0))) := by
  unfold k0_pay1
  dsimp only
  refine (shapeCast_ab_1ab_apply _ _ (0 : Fin 1) (0 : Fin 1) r).trans ?_
  refine (transpose_ix2_apply _ _ (0 : Fin 1) r).trans ?_
  refine min_of_eq rfl (max_of_eq rfl (congrArg Ideal.sqrt ?_))
  refine (shapeCast_a_a1_apply _ _ r (0 : Fin 1)).trans ?_
  refine (laneSum_at _ r).trans (Finset.sum_congr rfl fun c _ => ?_)
  refine select_eq_word (iota_single_apply .tc S1024x1024 32 1 _ (ix2 r c)) ?_ ?_ Ideal.ofBits_zero_f32
  · exact (broadcastTo_a1_ab_apply _ _ r c).trans (congrFun (shapeCast_self x3 _) _)
  · refine max_of_eq (sub_of_eq (add_of_eq ?_ ?_) (mul_of_eq rfl ?_)) Ideal.ofBits_zero_f32
    · refine (broadcastTo_a1_ab_apply _ _ r c).trans ((shapeCast_a_a1_apply _ _ r (0 : Fin 1)).trans ?_)
      exact laneSum_at (mulf x0 x0) r
    · exact (broadcastTo_1b_ab_apply _ _ r c).trans (congrFun (shapeCast_self x2 _) _)
    · refine (product_at _ _ r c).trans (Finset.sum_congr rfl fun d _ => mul_of_eq rfl ?_)
      exact congrFun (shapeCast_self x1 _) _

end Cert.KernelIdeal.Row

end
-- ==== Proof.KernelMean.lean ====
/-
  What the kernel's output array holds after the run, and the result the host lines after the region make of it.

  Grid point `t` stages rows `1024 t … 1024 t + 1023` of the features and of the label column, the whole padded centre
  table and the whole row of the centres' squared norms, and writes back the [1, 1, 1024] block `t` of the output.
  On the claim's domain a row's label word `w` is below 1000, so the host's clamp leaves it, the one-hot sum over the
  1024 columns picks column `w`, which is a column of the unpadded table: the padded table and its norms agree with the
  centres there. So entry (t, 0, r) of the output is the clamped distance of row `1024 t + r` to its labelled centre; the
  sixteen blocks tile the array; and the host's sum over the [16, 1024] recast, divided by 16384, is the mean.
-/
import proofs.«412185_j48739288875316_2_alg».proof.Proof.Gen.KernelIdeal.Frame
import proofs.«412185_j48739288875316_2_alg».proof.Proof.KernelRow
import proofs.«412185_j48739288875316_2_alg».proof.Proof.Distance
import Idealize.ShloMosaic.Lib.KernelVsHost
import Idealize.ShloMosaic.Lib.StableHlo.Run
import Idealize.ShloMosaic.Lib.StableHlo.Predicate
import Idealize.ShloMosaic.Lib.IdealHost

set_option maxRecDepth 16384

noncomputable section

namespace Cert.KernelIdeal.KernelValue

open Cert.KernelIdeal Cert.KernelIdeal.Gen Cert.KernelIdeal.Row Cert.Distance
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## The arrays by name -/

/-- The three arguments as launched. -/
abbrev cenA (c : Dev nD) : FVec Ideal S1000x1024 .f32 := m ((c : Thread nD τ).loc main_arg0)
abbrev featA (c : Dev nD) : FVec Ideal S16384x1024 .f32 := m ((c : Thread nD τ).loc main_arg1)
abbrev labA (c : Dev nD) : IVec S16384 32 := m ((c : Thread nD τ).loc main_arg2)

/-- The arrays the region stages, as it finds them. -/
abbrev featArr (c : Dev nD) : FVec Ideal S16384x1024 .f32 := V m c main_arg1
abbrev cenPad (c : Dev nD) : FVec Ideal S1024x1024 .bf16 := V m c main_v5
abbrev cenNorms (c : Dev nD) : FVec Ideal S1x1024 .f32 := V m c main_v4
abbrev labCol (c : Dev nD) : IVec S16384x1 32 := V m c main_v7

/-! ## The host lines before the region -/

/-- The centre table padded with 24 zero rows. -/
def padded (c : Dev nD) : FVec Ideal S1024x1024 .f32 :=
  pad S1024x1024 ![0, 0] ![24, 0] ![0, 0] (cenA m c) (sitofp (F := Ideal) .f32 (constantI S_ 32 0#32))
    pads_S1000x1024_S1024x1024_0240_000 h_S_

/-- A row of the padded table that is a row of the table. -/
theorem padded_at (c : Dev nD) (cc : Fin 1024) (h : cc.val < 1000) (d : Fin 1024) :
    padded m c (ix2 cc d) = cenA m c (ix2 ⟨cc.val, h⟩ d) := by
  unfold padded
  refine pad_apply_of_inside _ _ _ _ _ _ _ (ix2 cc d) (ix2 (⟨cc.val, h⟩ : Fin 1000) d) fun a => ?_
  match a with
  | ⟨0, _⟩ => show cc.val = 0 + cc.val * (0 + 1); omega
  | ⟨1, _⟩ => show d.val = 0 + d.val * (0 + 1); omega

/-- The squared norms of the padded table's rows. -/
def normsVec (c : Dev nD) : FVec Ideal S1024 .f32 :=
  Host.reduceAdd (mulf (padded m c) (padded m c)) (constant (F := Ideal) S_ .f32 0x00000000#32)
    reducesTo_S1024x1024_S1024_d1 h_S_

/-- A host sum over the second axis of a [1024, 1024] array from the zero word, at row `cc`. -/
theorem hostRowSum_at (y : FVec Ideal S1024x1024 .f32) (cc : Fin 1024) :
    Host.reduceAdd y (constant (F := Ideal) S_ .f32 0x00000000#32) reducesTo_S1024x1024_S1024_d1 h_S_ (ix1 cc)
      = ∑ d : Fin 1024, y (ix2 cc d) := by
  simp only [Host.reduceAdd, Ideal.hostReduceAdd_def]
  rw [Ideal.hostReduceAdd_single reducesTo_S1024x1024_S1024_d1 (by decide)]
  show Ideal.ofBits .f32 0x00000000#32 + _ = _
  rw [Ideal.ofBits_zero_f32, zero_add]
  refine Finset.sum_congr rfl fun k _ => ?_
  exact congrArg y (funext fun a => Fin.ext (by match a with | ⟨0, _⟩ => rfl | ⟨1, _⟩ => rfl))

theorem cenPad_eq (c : Dev nD) : cenPad m c = truncf .bf16 (padded m c) bitsLt_bf16_f32 := by
  show (V m c main_v5 : S1024x1024.Idx → EReal) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  simp only [TRef.ofBuf, TRef.toBuf, cast_eq]
  rfl

theorem cenNorms_eq (c : Dev nD) :
    cenNorms m c = transpose S1x1024 [1, 0] (broadcastInDim S1024x1 ![0] bcast_S1024_S1024x1_0 (normsVec m c))
      transposes_S1024x1_S1x1024_1_0 := by
  show (V m c main_v4 : S1x1024.Idx → EReal) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  simp only [TRef.ofBuf, TRef.toBuf, cast_eq]
  rfl

theorem labCol_eq (c : Dev nD) :
    labCol m c = shapeCast S16384x1 (minsi (broadcastInDim S16384 ![] bcast_S_S16384 (constantI S_ 32 999#32))
      (maxsi (broadcastInDim S16384 ![] bcast_S_S16384 (constantI S_ 32 0#32)) (labA m c))) shapeCasts_S16384_S16384x1 := by
  show (V m c main_v7 : S16384x1.Idx → BitVec 32) = _
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  simp only [TRef.ofBuf, TRef.toBuf, cast_eq]
  rfl

/-- The staged centre table at a row of the table: the narrowing is the identity at the ideal values. -/
theorem cenPad_at (c : Dev nD) (cc : Fin 1024) (h : cc.val < 1000) (d : Fin 1024) :
    cenPad m c (ix2 cc d) = cenA m c (ix2 ⟨cc.val, h⟩ d) :=
  (congrFun (cenPad_eq m c) _).trans (padded_at m c cc h d)

/-- The staged row of squared norms at a column of the table. -/
theorem cenNorms_at (c : Dev nD) (cc : Fin 1024) (h : cc.val < 1000) :
    cenNorms m c (ix2 (0 : Fin 1) cc) = cenSq (cenA m c) ⟨cc.val, h⟩ := by
  refine (congrFun (cenNorms_eq m c) _).trans ?_
  refine (transpose_ix2_apply _ _ (0 : Fin 1) cc).trans ?_
  refine (broadcastInDim_apply _ bcast_S1024_S1024x1_0 _ (ix2 cc (0 : Fin 1)) (ix1 cc) (fun a => match a with
    | ⟨0, _⟩ => by show cc.val = if (1024 : Nat) = 1 then 0 else cc.val; rw [if_neg (by decide)])).trans ?_
  unfold normsVec
  rw [hostRowSum_at]
  unfold cenSq
  exact Finset.sum_congr rfl fun d _ => by rw [mulf_apply, padded_at m c cc h d]

/-- A class number clamped into [0, 999] is itself. -/
theorem clamp_class {w : BitVec 32} (h : w.toNat < 1000) : IntOp.minsi 999#32 (IntOp.maxsi 0#32 w) = w := by
  have hti : w.toInt = w.toNat := Predicate.toInt_eq_toNat_of_lt (by omega)
  have h0 : (0#32 : BitVec 32).toInt = 0 := by decide
  have h9 : (999#32 : BitVec 32).toInt = 999 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h9, decide_eq_true_eq]
  omega

/-- The staged label column at row `i`: the host's clamp leaves a class number as it is. -/
theorem labCol_at (c : Dev nD) (hlab : ∀ j, (labA m c j).toNat < 1000) (i : Fin 16384) :
    labCol m c (ix2 i (0 : Fin 1)) = labA m c (ix1 i) := by
  refine (congrFun (labCol_eq m c) _).trans ?_
  refine (shapeCast_a_a1_apply _ _ i (0 : Fin 1)).trans ?_
  show IntOp.minsi (broadcastInDim S16384 ![] bcast_S_S16384 (constantI S_ 32 999#32) (ix1 i))
    (IntOp.maxsi (broadcastInDim S16384 ![] bcast_S_S16384 (constantI S_ 32 0#32) (ix1 i)) (labA m c (ix1 i))) = _
  rw [broadcastInDim_scalar_apply, broadcastInDim_scalar_apply]
  exact clamp_class (hlab _)

/-! ## A stored lane is its row's clamped distance -/

section Lane

variable (x0 : FVec Ideal S1024x1024 .f32) (x1 : FVec Ideal S1024x1024 .bf16) (x2 : FVec Ideal S1x1024 .f32)
  (x3 : IVec S1024x1 32) (cen : Cert.Distance.Centres) (feat : Cert.Distance.Features) (lab : Cert.Distance.Labels) (i : Fin 16384) (r : Fin 1024)
  (h0 : ∀ d : Fin 1024, x0 (ix2 r d) = feat (ix2 i d))
  (h1 : ∀ (cc : Fin 1024) (h : cc.val < 1000) (d : Fin 1024), x1 (ix2 cc d) = cen (ix2 ⟨cc.val, h⟩ d))
  (h2 : ∀ (cc : Fin 1024) (h : cc.val < 1000), x2 (ix2 (0 : Fin 1) cc) = cenSq cen ⟨cc.val, h⟩)
include h0 h1 h2

/-- At a column of the unpadded table the body's squared distance is the squared distance to that centre. -/
theorem blockSq_eq (cc : Fin 1024) (h : cc.val < 1000) : blockSq x0 x1 x2 r cc = sqDist cen feat i ⟨cc.val, h⟩ := by
  unfold blockSq sqDist featSq Cert.Distance.inner
  rw [h2 cc h]
  exact sub_of_eq (add_of_eq (Finset.sum_congr rfl fun d _ => by rw [h0 d]) rfl)
    (mul_of_eq rfl (Finset.sum_congr rfl fun d _ => by rw [h0 d, h1 cc h d]))

/-- The one-hot sum picks the label's column, a column of the unpadded table. -/
theorem lane_eq (h3 : x3 (ix2 r (0 : Fin 1)) = lab (ix1 i)) (hw : (lab (ix1 i)).toNat < 1000) :
    k0_pay1 (F := Ideal) x0 x1 x2 x3 (ix3 (0 : Fin 1) (0 : Fin 1) r) = rowDist cen feat lab i := by
  have hw24 : (lab (ix1 i)).toNat < 1024 := by omega
  refine (stored_at x0 x1 x2 x3 r).trans ?_
  rw [h3, sum_lane_eq (lab (ix1 i)) hw24 (fun c => max (blockSq x0 x1 x2 r c) 0)]
  show min _ (max _ (Ideal.sqrt (max (blockSq x0 x1 x2 r ⟨(lab (ix1 i)).toNat, hw24⟩) 0))) = _
  rw [blockSq_eq x0 x1 x2 cen feat i r h0 h1 h2 ⟨(lab (ix1 i)).toNat, hw24⟩ hw]
  unfold rowDist clipRoot
  exact congrArg (fun k => min (Ideal.ofBits .f32 0x5368D4A5#32) (max (Ideal.ofBits .f32 0x2B8CBCCC#32)
    (Ideal.sqrt (max (sqDist cen feat i k) 0)))) (Fin.ext (cls_val hw).symm)

end Lane

/-! ## The windows' blocks -/

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the sixteen grid points: the feature and label windows and the output window are at
    block `t` along their first axis, the two whole-array windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

theorem t_lt (t : Fin cfg0.N) : t.val < 16 := Nat.lt_of_lt_of_eq t.isLt (N_0 : cfg0.N = 16)

/-- The row of the arrays that lane `r` of grid point `t` is about. -/
def rowOf (t : Fin cfg0.N) (r : Fin 1024) : Fin 16384 :=
  ⟨t.val * 1024 + r.val, by have := t_lt t; have := r.isLt; omega⟩

/-- The feature block of point `t`, row `r`: row `1024 t + r` of the features. -/
theorem featBlk_at (c : Dev nD) (t : Fin cfg0.N) (r d : Fin 1024) :
    (iblk m c 0 t : S1024x1024.Idx → EReal) (ix2 r d) = featA m c (ix2 (rowOf t r) d) := by
  obtain ⟨e0, e1, -⟩ := idx_facts t
  show V m c main_arg1 (((cfg0.win 0).blk t).view.emb (ix2 r d)) = _
  rw [V_main_arg1]
  refine congrArg (m ((c : Thread nD τ).loc main_arg1)) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * d.val = d.val; omega

/-- The centre-table block of any point is the whole staged table. -/
theorem cenBlk_at (c : Dev nD) (t : Fin cfg0.N) (cc d : Fin 1024) :
    (iblk m c 1 t : S1024x1024.Idx → EReal) (ix2 cc d) = cenPad m c (ix2 cc d) := by
  obtain ⟨-, -, e0, e1, -⟩ := idx_facts t
  show V m c main_v5 (((cfg0.win 1).blk t).view.emb (ix2 cc d)) = V m c main_v5 (ix2 cc d)
  refine congrArg (V m c main_v5) (funext fun a => Fin.ext ?_)
  match a with
  | ⟨0, _⟩ => show win0_1.index t (0 : Fin 2) * 1024 + 1 * cc.val = cc.val; omega
  | ⟨1, _⟩ => show win0_1.index t (1 : Fin 2) * 1024 + 1 * d.val = d.val; omega

/-- The norms block of any point is the whole staged row. -/
theorem normBlk_at (c : Dev nD) (t : Fin cfg0.N) (cc : Fin 1024) :
    (iblk m c 2 t : S1x1024.Idx → EReal) (ix2 (0 : Fin 1) cc) = cenNorms m c (ix2 (0 : Fin 1) cc) := by
  obtain ⟨-, -, -, -, e0, e1, -⟩ := idx_facts t
  show V m c main_v4 (((cfg0.win 2).blk t).view.emb (ix2 (0 : Fin 1) cc)) = V m c main_v4 (ix2 (0 : Fin 1) cc)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 1024 + 1 * cc.val = cc.val; omega

/-- The label block of point `t`, row `r`: row `1024 t + r` of the staged label column. -/
theorem labBlk_at (c : Dev nD) (t : Fin cfg0.N) (r : Fin 1024) :
    (iblk m c 3 t : S1024x1.Idx → BitVec 32) (ix2 r (0 : Fin 1)) = labCol m c (ix2 (rowOf t r) (0 : Fin 1)) := by
  obtain ⟨-, -, -, -, -, -, e0, e1, -⟩ := idx_facts t
  show V m c main_v7 (((cfg0.win 3).blk t).view.emb (ix2 r (0 : Fin 1))) = V m c main_v7 (ix2 (rowOf t r) (0 : Fin 1))
  refine congrArg (V m c main_v7) (funext fun a => Fin.ext ?_)
  match a with
  | ⟨0, _⟩ => show win0_3.index t (0 : Fin 2) * 1024 + 1 * r.val = t.val * 1024 + r.val; omega
  | ⟨1, _⟩ => show win0_3.index t (1 : Fin 2) * 1 + 1 * 0 = 0; omega

/-! ## What a point writes back, and the array after the run -/

/-- What the output array ends holding: at (t, 0, r) the clamped distance of row `1024 t + r` to its labelled centre. -/
def outArr (c : Dev nD) : FVec Ideal S16x1x1024 .f32 := fun i =>
  rowDist (cenA m c) (featA m c) (labA m c)
    ⟨(i 0).val * 1024 + (i 2).val, by
      have h0 : (i 0).val < 16 := (i 0).isLt
      have h2 : (i 2).val < 1024 := (i 2).isLt
      omega⟩

/-- WHAT POINT `t` WRITES BACK is block `t` of that array. -/
theorem written_eq (c : Dev nD) (hlab : ∀ j, (labA m c j).toNat < 1000) (t : Fin cfg0.N) :
    (dats m 0 c).flushed 4 t = ((cfg0.win 4).blk t).view.read (Elt Ideal) (outArr m c) := by
  show (cfg0.win 4).cut (grid0.coords t) ((dats m 0 c).after 4 t) = _
  rw [after0_4]
  unfold out0_4
  rw [View.canon_unit_zero hz3]
  simp only [View.ld_unit_zero (S := S1024x1024) hz2, View.ld_unit_zero (S := S1x1024) hz2,
    View.ld_unit_zero (S := S1024x1) hz2]
  obtain ⟨-, -, -, -, -, -, -, -, e0, e1, e2⟩ := idx_facts t
  funext j
  have h2 : (j 2).val < 1024 := (j 2).isLt
  have ej : j = ix3 (0 : Fin 1) (0 : Fin 1) (⟨(j 2).val, h2⟩ : Fin 1024) := funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => rfl)
  show k0_pay1 (F := Ideal) (iblk m c 0 t) (iblk m c 1 t) (iblk m c 2 t) (iblk m c 3 t) j
    = outArr m c (((cfg0.win 4).blk t).view.emb j)
  refine (congrArg (k0_pay1 (F := Ideal) (iblk m c 0 t) (iblk m c 1 t) (iblk m c 2 t) (iblk m c 3 t)) ej).trans ?_
  refine (lane_eq (iblk m c 0 t) (iblk m c 1 t) (iblk m c 2 t) (iblk m c 3 t) (cenA m c) (featA m c) (labA m c)
    (rowOf t ⟨(j 2).val, h2⟩) ⟨(j 2).val, h2⟩
    (fun d => featBlk_at m c t _ d)
    (fun cc h d => (cenBlk_at m c t cc d).trans (cenPad_at m c cc h d))
    (fun cc h => (normBlk_at m c t cc).trans (cenNorms_at m c cc h))
    ((labBlk_at m c t _).trans (labCol_at m c hlab _)) (hlab _)).trans ?_
  unfold outArr
  refine congrArg (rowDist (cenA m c) (featA m c) (labA m c)) (Fin.ext ?_)
  have h0 : (j 0).val < 1 := (j 0).isLt
  show t.val * 1024 + (j 2).val
    = (win0_4.index t (0 : Fin 3) * 1 + 1 * (j 0).val) * 1024 + (win0_4.index t (2 : Fin 3) * 1024 + 1 * (j 2).val)
  omega

/-- An index of the output array is in point `t`'s block iff each coordinate is in the block's range on its axis. -/
theorem mem_blk (t : Fin cfg0.N) (i : S16x1x1024.Idx) :
    i ∈ ((cfg0.win 4).blk t).view.set ↔ ∀ a : Fin 3, win0_4.index t a * S1x1x1024.size a ≤ (i a).val
      ∧ (i a).val < win0_4.index t a * S1x1x1024.size a + S1x1x1024.size a := by
  show i ∈ ((View.whole main_v8).slice (win0_4.rect t)).set ↔ _
  rw [View.set_slice_whole, Rect.mem_set_unit]
  exact Iff.rfl

/-- The sixteen blocks tile the array: index (t, 0, r) is in point `t`'s. -/
theorem cover (i : S16x1x1024.Idx) :
    ∃ t : Fin cfg0.N, (cfg0.win 4).flush t = true ∧ i ∈ ((cfg0.win 4).blk t).view.set := by
  have h0 : (i 0).val < 16 := (i 0).isLt
  have h1 : (i 1).val < 1 := (i 1).isLt
  have h2 : (i 2).val < 1024 := (i 2).isLt
  have hN : (i 0).val < cfg0.N := Nat.lt_of_lt_of_eq h0 (N_0 : cfg0.N = 16).symm
  obtain ⟨-, -, -, -, -, -, -, -, e0, e1, e2⟩ := idx_facts ⟨(i 0).val, hN⟩
  refine ⟨⟨(i 0).val, hN⟩, flush0_4 _, ?_⟩
  rw [mem_blk]
  intro a
  match a with
  | ⟨0, _⟩ =>
    show win0_4.index ⟨(i 0).val, hN⟩ (0 : Fin 3) * 1 ≤ (i 0).val ∧ (i 0).val < win0_4.index ⟨(i 0).val, hN⟩ (0 : Fin 3) * 1 + 1
    have e0' : win0_4.index ⟨(i 0).val, hN⟩ (0 : Fin 3) = (i 0).val := e0
    omega
  | ⟨1, _⟩ =>
    show win0_4.index ⟨(i 0).val, hN⟩ (1 : Fin 3) * 1 ≤ (i 1).val ∧ (i 1).val < win0_4.index ⟨(i 0).val, hN⟩ (1 : Fin 3) * 1 + 1
    omega
  | ⟨2, _⟩ =>
    show win0_4.index ⟨(i 0).val, hN⟩ (2 : Fin 3) * 1024 ≤ (i 2).val ∧ (i 2).val < win0_4.index ⟨(i 0).val, hN⟩ (2 : Fin 3) * 1024 + 1024
    omega

/-- THE OUTPUT ARRAY after the run. -/
theorem final (c : Dev nD) (hlab : ∀ j, (labA m c j).toNat < 1000) : (dats m 0 c).arrAt 4 cfg0.N = outArr m c :=
  (dats m 0 c).arrAt_eq_of_cover 4 (outArr m c) (fun t _ => written_eq m c hlab t) cover

/-! ## The host lines after the region -/

/-- The result buffer after the tail: the sum over the [16, 1024] recast of the output array, divided by 16384. -/
theorem tail_eq (c : Dev nD) :
    (Pipeline.afterTail₀ cfgs (dats m) 0 (V0 m) [hostOps1] c main_v11 : S_.Idx → EReal)
      = Host.divf (Host.reduceAdd (shapeCast S16x1024 ((dats m 0 c).arrAt 4 (cfgs 0).N : S16x1x1024.Idx → EReal)
            shapeCasts_S16x1x1024_S16x1024) (constant (F := Ideal) S_ .f32 0x00000000#32) reducesTo_S16x1024_S_d0_1 h_S_)
          (constant (F := Ideal) S_ .f32 0x46800000#32) := by
  have hw : Pipeline.withArrays (cfgs 0).spec c (V0 m c) (fun w => (dats m 0 c).arrAt w (cfgs 0).N) (Proc.devRef .tc main_v8)
      = (dats m 0 c).arrAt 4 (cfgs 0).N :=
    Pipeline.withArrays_arr spec0 launch0.win.arr_inj c (V0 m c) _ 4
  unfold Pipeline.afterTail₀
  show StableHlo.after hostOps1 _ (Proc.devRef .tc main_v11) = _
  after_results
  rw [hw]
  rfl

/-- THE KERNEL'S RESULT: the mean clamped distance. -/
theorem result_eq (c : Dev nD) (hlab : ∀ j, (labA m c j).toNat < 1000) :
    (Pipeline.afterTail₀ cfgs (dats m) 0 (V0 m) [hostOps1] c main_v11 : S_.Idx → EReal)
      = fun _ => meanDist (cenA m c) (featA m c) (labA m c) := by
  have hX : ∀ (t : Fin 16) (r : Fin 1024),
      shapeCast S16x1024 (outArr m c) shapeCasts_S16x1x1024_S16x1024 (ix2 t r)
        = rowDist (cenA m c) (featA m c) (labA m c) ⟨t.val * 1024 + r.val, by have := t.isLt; have := r.isLt; omega⟩ :=
    fun t r => (shapeCast_apply (outArr m c) shapeCasts_S16x1x1024_S16x1024 (ix2 t r) (ix3 t (0 : Fin 1) r) (by
      rw [Shape.rowMajor_val_three, Shape.rowMajor_val_two]
      show (t.val * 1 + 0) * 1024 + r.val = t.val * 1024 + r.val
      omega)).trans rfl
  rw [tail_eq, show (dats m 0 c).arrAt 4 (cfgs 0).N = outArr m c from final m c hlab]
  funext j
  rw [hostDivf_apply]
  simp only [Host.reduceAdd, Ideal.hostReduceAdd_def]
  rw [Ideal.hostReduceAdd_total reducesTo_S16x1024_S_d0_1 (fun b => b.elim0)]
  show Ideal.div (Ideal.ofBits .f32 0x00000000#32 + _) (Ideal.ofBits .f32 0x46800000#32) = _
  rw [Ideal.ofBits_zero_f32, zero_add, sum_rect _ _ hX]
  rfl

/-! ## The run, read -/

/-- The frame run re-posted: the result at the mean clamped distance of the arguments, the arguments unchanged. -/
theorem run (hlab : ∀ c j, (labA m c j).toNat < 1000) :
    θ_run defs (onTc (τ := τ) (main (F := Ideal))) ⟨m, fun _ => 0, ρ⟩ fun r => ∀ c : Dev nD,
      r.2.mem ((c.tc : Thread nD τ).loc main_v11) = (fun _ => meanDist (cenA m c) (featA m c) (labA m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_eq m c (hlab c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.KernelValue

end
-- ==== Proof.lean ====
/-
  The kernel and its jnp reference compute one number: the mean, over the 16384 feature rows, of the distance from a
  row to the centre its label names, the distance clamped into [1e-12, 1e12].

  The reference forms the whole [16384, 1000] matrix of distances `sqrt (max (‖f‖² + ‖c‖² − 2 ⟨f, c⟩) 0)` and takes, in
  each row, the entry in the label's column. The kernel pads the centre table to 1024 rows, and per block of 1024 rows
  forms the clamped squared distances to all 1024 columns, sums them against the one-hot mask "column number = label"
  and takes the root of that sum: with exactly one unmasked term, the root of the sum is the root of that term. The two
  agree where every label is a class number, `0 ≤ label < 1000`, which the precondition states: there the reference's
  take neither wraps the index nor selects its fill value, the kernel's clamp of the label is the identity, and the
  label's column is a column of the unpadded table, where the padded table and its squared norms are the centres'.
  Sums over the extended reals commute and associate without any finiteness, so the proof never uses that the float
  inputs are finite; the final means are one sum of 16384 terms, read by rows of 1024 on the kernel's side.

  The frames are the generated ones (the reference's is its run with the result dropped); the idealization rewrote
  nothing, so `preserves` is trivial.
-/
import proofs.«412185_j48739288875316_2_alg».proof.Defs
import proofs.«412185_j48739288875316_2_alg».proof.Proof.Gen.Kernel
import proofs.«412185_j48739288875316_2_alg».proof.Proof.Gen.Kernel.Skeleton
import proofs.«412185_j48739288875316_2_alg».proof.Proof.Gen.Kernel.Launch
import proofs.«412185_j48739288875316_2_alg».proof.Proof.Gen.Kernel.Points
import proofs.«412185_j48739288875316_2_alg».proof.Proof.Gen.Kernel.Frame
import proofs.«412185_j48739288875316_2_alg».proof.Proof.Gen.KernelIdeal
import proofs.«412185_j48739288875316_2_alg».proof.Proof.Gen.KernelIdeal.Skeleton
import proofs.«412185_j48739288875316_2_alg».proof.Proof.Gen.KernelIdeal.Launch
import proofs.«412185_j48739288875316_2_alg».proof.Proof.Gen.KernelIdeal.Points
import proofs.«412185_j48739288875316_2_alg».proof.Proof.Gen.KernelIdeal.Frame
import proofs.«412185_j48739288875316_2_alg».proof.Proof.Gen.ReferenceIdeal
import proofs.«412185_j48739288875316_2_alg».proof.Proof.Gen.Pre_finite_inputs
import proofs.«412185_j48739288875316_2_alg».proof.Proof.LabelRange
import proofs.«412185_j48739288875316_2_alg».proof.Proof.ReferenceMean
import proofs.«412185_j48739288875316_2_alg».proof.Proof.KernelMean
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both runs end with the mean clamped distance of the (agreeing) arguments: the kernel's by its blocks and the
    host lines after the region, the reference's by its last stage read back; the label range comes from the
    precondition. -/
theorem algebraic : Cert.algebraic_KernelIdeal_ReferenceIdeal := by
  intro m ρ m' ρ' hpre hagree
  have hlab : ∀ c j, (Cert.KernelIdeal.KernelValue.labA m c j).toNat < 1000 := fun c j =>
    Cert.LabelRange.label_lt (F := Ideal) _ _ _ (hpre c) j
  refine ⟨fun c _ => Cert.Distance.meanDist (Cert.KernelIdeal.KernelValue.cenA m c) (Cert.KernelIdeal.KernelValue.featA m c)
    (Cert.KernelIdeal.KernelValue.labA m c), Cert.KernelIdeal.KernelValue.run m ρ hlab, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v22_eq, (hagree c).1, (hagree c).2.1, (hagree c).2.2]
  exact Cert.ReferenceIdeal.RefValue.mean_eq _ _ _ (hlab c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
